-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v39_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128000 : Shape := ⟨2, ![64, 128000]⟩
abbrev S512 : Shape := ⟨1, ![512]⟩
abbrev S1000000 : Shape := ⟨1, ![1000000]⟩
abbrev S_ : Shape := ⟨0, ![]⟩

class Facts : Prop where
  bcast_S_S64x128000 : S_.BroadcastsInDim S64x128000 (![] : Fin 0 → Fin S64x128000.rank)
  reducesTo_S64x128000_S_d0_1 : S64x128000.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S64x128000 .f32) (main_arg1 : FVec F S512 .f32) (main_arg2 : IVec S1000000 32) (main_arg3 : IVec S1000000 32) : IVec S_ 1 :=
  let main_v0 : FVec F S64x128000 .f32 := Host.absf main_arg0
  let main_cst : FVec F S_ .f32 := constant S_ .f32 0x7F800000#32
  let main_v1 : FVec F S64x128000 .f32 := broadcastInDim S64x128000 ![] bcast_S_S64x128000 main_cst
  let main_v2 : IVec S64x128000 1 := cmpf .olt main_v0 main_v1
  let main_c : IVec S_ 1 := constantI S_ 1 1#1
  let main_v3 : IVec S_ 1 := (fun x v => Host.reduce IntOp.andi x v reducesTo_S64x128000_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S64x128000 : Shape := ⟨2, ![64, 128000]⟩
abbrev S512 : Shape := ⟨1, ![512]⟩
abbrev S1000000 : Shape := ⟨1, ![1000000]⟩
abbrev S_ : Shape := ⟨0, ![]⟩
abbrev S1000000x1 : Shape := ⟨2, ![1000000, 1]⟩
abbrev S128000 : Shape := ⟨1, ![128000]⟩
abbrev S1x128000 : Shape := ⟨2, ![1, 128000]⟩
abbrev S64x12800 : Shape := ⟨2, ![64, 12800]⟩
abbrev S1x12800 : Shape := ⟨2, ![1, 12800]⟩

abbrev nBuf : Space → Nat
  | .hbm => 60
  | .vmem => 8
  | .smem => 0
  | _ => 0

abbrev bufTy : (tb : Table) → Fin (tcTables nBuf tb) → BufTy
  | .hbm, ⟨0, _⟩ => ⟨S64x128000, .f32⟩
  | .hbm, ⟨1, _⟩ => ⟨S512, .f32⟩
  | .hbm, ⟨2, _⟩ => ⟨S1000000, .i32⟩
  | .hbm, ⟨3, _⟩ => ⟨S1000000, .i32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S128000, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S128000, .f32⟩
  | .hbm, ⟨35, _⟩ => ⟨S_, .f32⟩
  | .hbm, ⟨36, _⟩ => ⟨S512, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S_, .f32⟩
  | .hbm, ⟨46, _⟩ => ⟨S1000000, .f32⟩
  | .hbm, ⟨47, _⟩ => ⟨S512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1x128000, .f32⟩
  | .hbm, ⟨58, _⟩ => ⟨S64x128000, .f32⟩
  | .hbm, ⟨59, _⟩ => ⟨S64x128000, .f32⟩
  | .local _ .vmem, ⟨0, _⟩ => ⟨S64x12800, .f32⟩
  | .local _ .vmem, ⟨1, _⟩ => ⟨S64x12800, .f32⟩
  | .local _ .vmem, ⟨2, _⟩ => ⟨S1x12800, .f32⟩
  | .local _ .vmem, ⟨3, _⟩ => ⟨S1x12800, .f32⟩
  | .local _ .vmem, ⟨4, _⟩ => ⟨S64x12800, .f32⟩
  | .local _ .vmem, ⟨5, _⟩ => ⟨S64x12800, .f32⟩
  | .local _ .vmem, ⟨6, _⟩ => ⟨S64x12800, .f32⟩
  | .local _ .vmem, ⟨7, _⟩ => ⟨S64x12800, .f32⟩
  | _, _ => ⟨S64x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S128000 : S_.BroadcastsInDim S128000 (![] : Fin 0 → Fin S128000.rank)
  reducesTo_S512_S_d0 : S512.ReducesTo [0] S_
  h_S_ : 0 < S_.numel
  shapeCasts_S128000_S1x128000 : S128000.ShapeCasts S1x128000
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  inb_S64x12800_S64x12800_0_0 : ∀ a, (![0, 0] : Fin 2 → Nat) a + S64x12800.size a ≤ S64x12800.size a
  h_S64x12800 : 0 < S64x12800.numel
  broadcasts_S1x12800_S64x12800 : S1x12800.Broadcasts S64x12800
  gather_S512_S1000000x1_S1000000_n_0_n_n_0_1_1_wf : GatherDims.WF S512 S1000000x1 S1000000 [] [0] [] [0] [] 1 ![1]
  scatter_S128000_S1000000x1_S1000000_n_0_0_1_wf : ScatterDims.WF S128000 S1000000x1 S1000000 [] [0] [0] 1
  scatter_S512_S1000000x1_S1000000_n_0_0_1_wf : ScatterDims.WF S512 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x12800.size a ≤ S64x128000.size a
  hwx0_0 : ∀ i : grid0.Coords, EltTy.bits .f32 = 32 ∨ (Rect.block (s := S64x128000) S64x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12800.size a ≤ S1x128000.size a
  hwx0_1 : ∀ i : grid0.Coords, EltTy.bits .f32 = 32 ∨ (Rect.block (s := S1x128000) S1x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x12800.size a ≤ S64x128000.size a
  hwx0_2 : ∀ i : grid0.Coords, EltTy.bits .f32 = 32 ∨ (Rect.block (s := S64x128000) S64x12800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x12800.size a ≤ S64x128000.size a
  hwx0_3 : ∀ i : grid0.Coords, EltTy.bits .f32 = 32 ∨ (Rect.block (s := S64x128000) S64x12800.size (cc0_transform_3 i) (hinb0_3 i)).WholeWords (EltTy.packing .f32)

variable [Facts₀]

def gather_S512_S1000000x1_S1000000_n_0_n_n_0_1_1 : GatherDims S512 S1000000x1 S1000000 where
  offsetDims := []
  collapsedSliceDims := [0]
  operandBatchingDims := []
  startIndicesBatchingDims := []
  startIndexMap := [0]
  indexVectorDim := 1
  sliceSizes := ![1]
  wf := gather_S512_S1000000x1_S1000000_n_0_n_n_0_1_1_wf
def scatter_S128000_S1000000x1_S1000000_n_0_0_1 : ScatterDims S128000 S1000000x1 S1000000 where
  updateWindowDims := []
  insertedWindowDims := [0]
  scatterDimsToOperandDims := [0]
  indexVectorDim := 1
  wf := scatter_S128000_S1000000x1_S1000000_n_0_0_1_wf
def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf

abbrev win0_0 : Pipeline.Window sig grid0 :=
  Pipeline.Window.ofSpec (Memref.whole main_arg0) S64x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39_0) S64x12800.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39_1) S64x12800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128000 : Shape := ⟨2, ![64, 128000]⟩
abbrev S512 : Shape := ⟨1, ![512]⟩
abbrev S1000000 : Shape := ⟨1, ![1000000]⟩
abbrev S_ : Shape := ⟨0, ![]⟩
abbrev S1000000x1 : Shape := ⟨2, ![1000000, 1]⟩
abbrev S128000 : Shape := ⟨1, ![128000]⟩
abbrev S1x128000 : Shape := ⟨2, ![1, 128000]⟩

abbrev nBuf : Space → Nat
  | .hbm => 60
  | .vmem => 0
  | .smem => 0
  | _ => 0

abbrev bufTy : (tb : Table) → Fin (tcTables nBuf tb) → BufTy
  | .hbm, ⟨0, _⟩ => ⟨S64x128000, .f32⟩
  | .hbm, ⟨1, _⟩ => ⟨S512, .f32⟩
  | .hbm, ⟨2, _⟩ => ⟨S1000000, .i32⟩
  | .hbm, ⟨3, _⟩ => ⟨S1000000, .i32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S128000, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S128000, .f32⟩
  | .hbm, ⟨35, _⟩ => ⟨S1x128000, .f32⟩
  | .hbm, ⟨36, _⟩ => ⟨S64x128000, .f32⟩
  | .hbm, ⟨37, _⟩ => ⟨S64x128000, .f32⟩
  | .hbm, ⟨38, _⟩ => ⟨S_, .f32⟩
  | .hbm, ⟨39, _⟩ => ⟨S512, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S_, .f32⟩
  | .hbm, ⟨49, _⟩ => ⟨S1000000, .f32⟩
  | .hbm, ⟨50, _⟩ => ⟨S512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S64x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S128000 : S_.BroadcastsInDim S128000 (![] : Fin 0 → Fin S128000.rank)
  bcast_S128000_S1x128000_1 : S128000.BroadcastsInDim S1x128000 (![1] : Fin 1 → Fin S1x128000.rank)
  bcast_S1x128000_S64x128000_0_1 : S1x128000.BroadcastsInDim S64x128000 (![0, 1] : Fin 2 → Fin S64x128000.rank)
  reducesTo_S512_S_d0 : S512.ReducesTo [0] S_
  h_S_ : 0 < S_.numel
  gather_S512_S1000000x1_S1000000_n_0_n_n_0_1_1_wf : GatherDims.WF S512 S1000000x1 S1000000 [] [0] [] [0] [] 1 ![1]
  scatter_S128000_S1000000x1_S1000000_n_0_0_1_wf : ScatterDims.WF S128000 S1000000x1 S1000000 [] [0] [0] 1
  scatter_S512_S1000000x1_S1000000_n_0_0_1_wf : ScatterDims.WF S512 S1000000x1 S1000000 [] [0] [0] 1

variable [Facts₀]

def gather_S512_S1000000x1_S1000000_n_0_n_n_0_1_1 : GatherDims S512 S1000000x1 S1000000 where
  offsetDims := []
  collapsedSliceDims := [0]
  operandBatchingDims := []
  startIndicesBatchingDims := []
  startIndexMap := [0]
  indexVectorDim := 1
  sliceSizes := ![1]
  wf := gather_S512_S1000000x1_S1000000_n_0_n_n_0_1_1_wf
def scatter_S128000_S1000000x1_S1000000_n_0_0_1 : ScatterDims S128000 S1000000x1 S1000000 where
  updateWindowDims := []
  insertedWindowDims := [0]
  scatterDimsToOperandDims := [0]
  indexVectorDim := 1
  wf := scatter_S128000_S1000000x1_S1000000_n_0_0_1_wf
def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf

class Facts : Prop extends Facts₀ where

variable [Facts]
-- ==== Proof.KernelBlocks.lean ====
/-
  What the kernel leaves in its two result arrays, index by index, at any float instance.

  The grid walks the 128000 columns in ten tiles of 12800. At a tile the body loads the tile's 64 rows of the first
  operand and the tile's stretch of the one-row second operand, lays that stretch under each of the 64 rows, and stores
  the difference into the first result and the laid-out stretch itself into the second. So, with `A` the first operand
  and `R` the one-row operand as the region finds them,

    first result  (b, v) = A (b, v) - R (0, v)          second result (b, v) = R (0, v).

  Read here: the body's two stored blocks at a block index (over the generated form of the stored pieces), each input
  block as the operand at the tile's offset, what a tile writes back as the tile's block of those two functions, that
  the ten tiles cover the arrays, and hence the arrays after the run.
-/
import proofs.«131697_j27685359190337_1_alg».proof.Proof.Gen.KernelIdeal.Value
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The two functions -/

/-- One row laid under every row of the batch: entry (b, v) is the row's entry v. -/
abbrev underEveryRow (R : S1x128000.Idx → Elt F .f32) : S64x128000.Idx → Elt F .f32 :=
  fun i => R (ix2 (0 : Fin 1) (i 1))

/-- The array with the row taken off each of its rows: entry (b, v) is A (b, v) - R (0, v). -/
abbrev lessRow (A : S64x128000.Idx → Elt F .f32) (R : S1x128000.Idx → Elt F .f32) : S64x128000.Idx → Elt F .f32 :=
  fun i => FloatOps.subf (A i) (R (ix2 (0 : Fin 1) (i 1)))

/-! ## The body's two blocks at a block index -/

theorem zero_offsets : (![0, 0] : Fin 2 → Nat) = fun _ => 0 := funext fun a => by fin_cases a <;> rfl

/-- The second result's block at (b, q) is the row stretch's entry q. -/
theorem spreadBlock_apply (x0 : Vec F S64x12800 .f32) (x1 : Vec F S1x12800 .f32) (y : S64x12800.Idx) :
    out0_3 x0 x1 y = x1 (ix2 (0 : Fin 1) (y 1)) := by
  unfold out0_3
  rw [canon3_eq]
  simp only [View.ld_unit_zero (S := S1x12800) zero_offsets]
  exact congrArg x1 (funext fun a => Fin.ext (match a with | ⟨0, _⟩ => rfl | ⟨1, _⟩ => rfl))

/-- The first result's block at (b, q) is the operand block's entry (b, q) less the row stretch's entry q. -/
theorem lessBlock_apply (x0 : Vec F S64x12800 .f32) (x1 : Vec F S1x12800 .f32) (y : S64x12800.Idx) :
    out0_2 x0 x1 y = FloatOps.subf (x0 y) (x1 (ix2 (0 : Fin 1) (y 1))) := by
  unfold out0_2
  rw [canon2_eq]
  simp only [View.ld_unit_zero (S := S1x12800) zero_offsets, View.ld_unit_zero (S := S64x12800) zero_offsets]
  show FloatOps.subf (x0 (ix2_0 y)) (x1 (ix2_1 y)) = _
  have e0 : ix2_0 y = y := funext fun a => Fin.ext (match a with | ⟨0, _⟩ => rfl | ⟨1, _⟩ => rfl)
  have e1 : ix2_1 y = ix2 (0 : Fin 1) (y 1) := funext fun a => Fin.ext (match a with | ⟨0, _⟩ => rfl | ⟨1, _⟩ => rfl)
  exact congrArg₂ FloatOps.subf (congrArg x0 e0) (congrArg x1 e1)

/-! ## Where the tiles sit -/

/-- Tile `t` of every window is the block at row offset 0 and column block `t` (decided over the ten tiles). -/
theorem tile_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## What a tile writes back -/

/-- Tile `t` writes back, to the second result, its block of the row laid under every row. -/
theorem flushed_spread (c : Dev nD) (t : Fin cfg0.N) :
    (dats m 0 c).flushed 3 t = ((cfg0.win 3).blk t).view.read (Elt F) (underEveryRow (V m c main_v38)) := by
  rw [flushed3]
  obtain ⟨-, -, e10, e11, -, -, e30, e31⟩ := tile_index t
  funext j
  show out0_3 (iblk m c 0 t) (iblk m c 1 t) j = V m c main_v38 (ix2 (0 : Fin 1) ((((cfg0.win 3).blk t).view.emb j) 1))
  refine (spreadBlock_apply (iblk m c 0 t) (iblk m c 1 t) j).trans ?_
  show V m c main_v38 (((cfg0.win 1).blk t).view.emb (ix2 (0 : Fin 1) (j 1))) = _
  refine congrArg (V m c main_v38) (funext fun a => Fin.ext ?_)
  match a with
  | ⟨0, _⟩ => show win0_1.index t (0 : Fin 2) * 1 + 1 * 0 = 0; omega
  | ⟨1, _⟩ => show win0_1.index t (1 : Fin 2) * 12800 + 1 * (j 1).val = win0_3.index t (1 : Fin 2) * 12800 + 1 * (j 1).val; omega

/-- Tile `t` writes back, to the first result, its block of the operand less the row. -/
theorem flushed_less (c : Dev nD) (t : Fin cfg0.N) :
    (dats m 0 c).flushed 2 t = ((cfg0.win 2).blk t).view.read (Elt F) (lessRow (V m c main_arg0) (V m c main_v38)) := by
  rw [flushed2]
  obtain ⟨e00, e01, e10, e11, e20, e21, -, -⟩ := tile_index t
  funext j
  show out0_2 (iblk m c 0 t) (iblk m c 1 t) j = FloatOps.subf (V m c main_arg0 (((cfg0.win 2).blk t).view.emb j)) (V m c main_v38 (ix2 (0 : Fin 1) ((((cfg0.win 2).blk t).view.emb j) 1)))
  refine (lessBlock_apply (iblk m c 0 t) (iblk m c 1 t) j).trans ?_
  show FloatOps.subf (V m c main_arg0 (((cfg0.win 0).blk t).view.emb j)) (V m c main_v38 (((cfg0.win 1).blk t).view.emb (ix2 (0 : Fin 1) (j 1)))) = _
  have h0 : ((cfg0.win 0).blk t).view.emb j = ((cfg0.win 2).blk t).view.emb j := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 12800 + 1 * (j 1).val = win0_2.index t (1 : Fin 2) * 12800 + 1 * (j 1).val; omega
  have h1 : ((cfg0.win 1).blk t).view.emb (ix2 (0 : Fin 1) (j 1)) = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 12800 + 1 * (j 1).val = win0_2.index t (1 : Fin 2) * 12800 + 1 * (j 1).val; omega
  exact congrArg₂ FloatOps.subf (congrArg (V m c main_arg0) h0) (congrArg (V m c main_v38) h1)

/-! ## The ten tiles cover the arrays -/

/-- An index of the first result is in tile `t`'s block iff each coordinate is in the block's range on its axis. -/
theorem mem_tile_less (t : Fin cfg0.N) (i : S64x128000.Idx) :
    i ∈ ((cfg0.win 2).blk t).view.set ↔ ∀ a : Fin 2, win0_2.index t a * S64x12800.size a ≤ (i a).val ∧ (i a).val < win0_2.index t a * S64x12800.size a + S64x12800.size a := by
  show i ∈ ((View.whole main_v39_0).slice (win0_2.rect t)).set ↔ _
  rw [View.set_slice_whole, Rect.mem_set_unit]
  exact Iff.rfl

/-- The same for the second result. -/
theorem mem_tile_spread (t : Fin cfg0.N) (i : S64x128000.Idx) :
    i ∈ ((cfg0.win 3).blk t).view.set ↔ ∀ a : Fin 2, win0_3.index t a * S64x12800.size a ≤ (i a).val ∧ (i a).val < win0_3.index t a * S64x12800.size a + S64x12800.size a := by
  show i ∈ ((View.whole main_v39_1).slice (win0_3.rect t)).set ↔ _
  rw [View.set_slice_whole, Rect.mem_set_unit]
  exact Iff.rfl

/-- The tile that holds column `v` is tile `v / 12800`. -/
def tileOf (i : S64x128000.Idx) : Fin cfg0.N :=
  ⟨(i 1).val / 12800, by have h : (i 1).val < 128000 := (i 1).isLt; rw [show cfg0.N = 10 from N_0]; omega⟩

theorem tileOf_val (i : S64x128000.Idx) : (tileOf i).val = (i 1).val / 12800 := rfl

/-- Every index of the first result is in the block of its column's tile. -/
theorem covered_less (i : S64x128000.Idx) :
    ∃ t : Fin cfg0.N, (cfg0.win 2).flush t = true ∧ i ∈ ((cfg0.win 2).blk t).view.set := by
  have hi0 : (i 0).val < 64 := (i 0).isLt
  have hi1 : (i 1).val < 128000 := (i 1).isLt
  obtain ⟨-, -, -, -, e20, e21, -, -⟩ := tile_index (tileOf i)
  have ht := tileOf_val i
  refine ⟨tileOf i, flush0_2 _, ?_⟩
  rw [mem_tile_less]
  intro a
  match a with
  | ⟨0, _⟩ => show win0_2.index (tileOf i) (0 : Fin 2) * 64 ≤ (i 0).val ∧ (i 0).val < win0_2.index (tileOf i) (0 : Fin 2) * 64 + 64; omega
  | ⟨1, _⟩ => show win0_2.index (tileOf i) (1 : Fin 2) * 12800 ≤ (i 1).val ∧ (i 1).val < win0_2.index (tileOf i) (1 : Fin 2) * 12800 + 12800; omega

/-- Every index of the second result is in the block of its column's tile. -/
theorem covered_spread (i : S64x128000.Idx) :
    ∃ t : Fin cfg0.N, (cfg0.win 3).flush t = true ∧ i ∈ ((cfg0.win 3).blk t).view.set := by
  have hi0 : (i 0).val < 64 := (i 0).isLt
  have hi1 : (i 1).val < 128000 := (i 1).isLt
  obtain ⟨-, -, -, -, -, -, e30, e31⟩ := tile_index (tileOf i)
  have ht := tileOf_val i
  refine ⟨tileOf i, flush0_3 _, ?_⟩
  rw [mem_tile_spread]
  intro a
  match a with
  | ⟨0, _⟩ => show win0_3.index (tileOf i) (0 : Fin 2) * 64 ≤ (i 0).val ∧ (i 0).val < win0_3.index (tileOf i) (0 : Fin 2) * 64 + 64; omega
  | ⟨1, _⟩ => show win0_3.index (tileOf i) (1 : Fin 2) * 12800 ≤ (i 1).val ∧ (i 1).val < win0_3.index (tileOf i) (1 : Fin 2) * 12800 + 12800; omega

/-! ## The arrays after the run -/

/-- The first result ends holding the first operand less the one-row operand, row by row. -/
theorem less_final (c : Dev nD) : (dats m 0 c).arrAt 2 cfg0.N = lessRow (V m c main_arg0) (V m c main_v38) :=
  (dats m 0 c).arrAt_eq_of_cover 2 _ (fun t _ => flushed_less m c t) covered_less

/-- The second result ends holding the one-row operand laid under every row. -/
theorem spread_final (c : Dev nD) : (dats m 0 c).arrAt 3 cfg0.N = underEveryRow (V m c main_v38) :=
  (dats m 0 c).arrAt_eq_of_cover 3 _ (fun t _ => flushed_spread m c t) covered_spread

end Cert.KernelIdeal.Blocks

end
-- ==== Proof.Penalty.lean ====
/-
  The two quantities both programs compute on the host before anything is spread over the batch, each as ONE
  function of the argument arrays, in named stages:

  * the gates, the logistic function of the gate logits, written as the programs write it: 1 / (1 + exp (-g));
  * an index list read the way array indexing reads it: an entry below zero counts from the end (entry + extent);
  * the penalty row: every pair's gate, looked up by its rule index, times one half, added into a row of zeros at
    the pair's token index;
  * the firing indicator: ones set into a row of zeros at every rule index, and the coverage loss
    -(sum of gates · firing) / max (sum of firing, 1).

  They are stated over the kernel program's shape records and at any float instance; nothing is proved here.
-/
import proofs.«131697_j27685359190337_1_alg».proof.KernelIdeal

noncomputable section

namespace Cert.KernelIdeal.Penalty

open Idealize.ShloMosaic Idealize.SL.Sem Cert.KernelIdeal

variable {F : FTy → Type} [FloatOps F] [Facts]
open Facts₀

/-- The gates: the logistic function of the gate logits, 1 / (1 + exp (-g)), entry by entry. -/
def gates (g : (⟨S512, .f32⟩ : BufTy).Contents (Elt F)) : (⟨S512, .f32⟩ : BufTy).Contents (Elt F) :=
  Host.divf (broadcastInDim S512 ![] bcast_S_S512 (constant (F := F) S_ .f32 0x3F800000#32))
    (addf (broadcastInDim S512 ![] bcast_S_S512 (constant (F := F) S_ .f32 0x3F800000#32)) (Host.exp (Host.negf g)))

/-- An index list as indexing reads it: an entry below zero has the axis' extent `n` added. -/
def fromEnd (n : BitVec 32) (r : (⟨S1000000, .i32⟩ : BufTy).Contents (Elt F)) : (⟨S1000000, .i32⟩ : BufTy).Contents (Elt F) :=
  select (cmpi .slt r (broadcastInDim S1000000 ![] bcast_S_S1000000 (constantI S_ 32 0#32)))
    (addi r (broadcastInDim S1000000 ![] bcast_S_S1000000 (constantI S_ 32 n))) r

/-- The index list as the one-column table the gather and the scatters take. -/
def column (r : (⟨S1000000, .i32⟩ : BufTy).Contents (Elt F)) : (⟨S1000000x1, .i32⟩ : BufTy).Contents (Elt F) :=
  broadcastInDim S1000000x1 ![0] bcast_S1000000_S1000000x1_0 r

/-- Each pair's penalty: its rule's gate times one half. -/
def pairValues (g : (⟨S512, .f32⟩ : BufTy).Contents (Elt F)) (rules : (⟨S1000000, .i32⟩ : BufTy).Contents (Elt F)) :
    (⟨S1000000, .f32⟩ : BufTy).Contents (Elt F) :=
  mulf (Host.gather gather_S512_S1000000x1_S1000000_n_0_n_n_0_1_1 (gates g) (column (fromEnd 512#32 rules)))
    (broadcastInDim S1000000 ![] bcast_S_S1000000 (constant (F := F) S_ .f32 0x3F000000#32))

/-- THE PENALTY ROW: the pairs' penalties added into a row of zeros, each at its pair's token index. -/
def penaltyRow (g : (⟨S512, .f32⟩ : BufTy).Contents (Elt F)) (rules tokens : (⟨S1000000, .i32⟩ : BufTy).Contents (Elt F)) :
    (⟨S128000, .f32⟩ : BufTy).Contents (Elt F) :=
  Host.scatterAdd scatter_S128000_S1000000x1_S1000000_n_0_0_1
    (broadcastInDim S128000 ![] bcast_S_S128000 (constant (F := F) S_ .f32 0x00000000#32))
    (column (fromEnd 128000#32 tokens)) (pairValues g rules)

/-- The firing indicator: one at every rule some pair names, zero elsewhere. -/
def firing (rules : (⟨S1000000, .i32⟩ : BufTy).Contents (Elt F)) : (⟨S512, .f32⟩ : BufTy).Contents (Elt F) :=
  Host.scatter scatter_S512_S1000000x1_S1000000_n_0_0_1 (fun _ b => b)
    (broadcastInDim S512 ![] bcast_S_S512 (constant (F := F) S_ .f32 0x00000000#32))
    (column (fromEnd 512#32 rules))
    (broadcastInDim S1000000 ![] bcast_S_S1000000 (constant (F := F) S_ .f32 0x3F800000#32))

/-- THE COVERAGE LOSS: minus the gates summed over the firing rules, over the number of firing rules (at least one). -/
def coverage (g : (⟨S512, .f32⟩ : BufTy).Contents (Elt F)) (rules : (⟨S1000000, .i32⟩ : BufTy).Contents (Elt F)) :
    (⟨S_, .f32⟩ : BufTy).Contents (Elt F) :=
  Host.divf
    (Host.negf (Host.reduceAdd (mulf (gates g) (firing rules)) (constant (F := F) S_ .f32 0x00000000#32) reducesTo_S512_S_d0 h_S_))
    (maximumf (Host.reduceAdd (firing rules) (constant (F := F) S_ .f32 0x00000000#32) reducesTo_S512_S_d0 h_S_)
      (constant (F := F) S_ .f32 0x3F800000#32))

end Cert.KernelIdeal.Penalty

end
-- ==== Proof.KernelHost.lean ====
/-
  What the host part of the kernel program hands the region, and its scalar result.

  Before the region, the kernel program computes on the host exactly the two quantities of the specification: the
  penalty row, which it then recasts from 128000 entries to one row of 128000 (the region's second operand), and the
  coverage loss (the program's second result, which the region never touches). Each is read off the host operations
  as they stand.
-/
import proofs.«131697_j27685359190337_1_alg».proof.Proof.Gen.KernelIdeal.Frame
import proofs.«131697_j27685359190337_1_alg».proof.Proof.Penalty
import Idealize.ShloMosaic.Lib.StableHlo.Run

noncomputable section

namespace Cert.KernelIdeal.HostPart

open Cert.KernelIdeal Cert.KernelIdeal.Gen Cert.KernelIdeal.Penalty Idealize.ShloMosaic Idealize.ShloMosaic.TcCoe Idealize.SL.Sem
open Idealize.ShloMosaic.StableHlo

variable {F : FTy → Type} [FloatOps F]
variable (m : (ℓ : Loc nD τ sig) → Buf (Elt F) ℓ)

/-- The region's one-row operand is the penalty row of the arguments, recast to one row. -/
theorem row_operand (c : Dev nD) :
    (V m c main_v38 : S1x128000.Idx → Elt F .f32)
      = shapeCast S1x128000 (penaltyRow (F := F) (m ((c : Thread nD τ).loc main_arg1)) (m ((c : Thread nD τ).loc main_arg2)) (m ((c : Thread nD τ).loc main_arg3))) Facts₀.shapeCasts_S128000_S1x128000 := by
  dsimp only [Gen.V, Gen.hostOps0]
  after_results_simp
  rfl

/-- The program's scalar result, as the region finds it, is the coverage loss of the arguments. -/
theorem scalar_result (c : Dev nD) :
    (V m c main_v37 : S_.Idx → Elt F .f32)
      = coverage (F := F) (m ((c : Thread nD τ).loc main_arg1)) (m ((c : Thread nD τ).loc main_arg2)) := by
  dsimp only [Gen.V, Gen.hostOps0]
  after_results_simp
  rfl

end Cert.KernelIdeal.HostPart

end
-- ==== Proof.KernelRun.lean ====
/-
  The kernel program's run with its three results named, at any float instance.

  The region's first operand is the first argument as launched; its one-row operand is the penalty row recast to one
  row, whose entry (0, v) is the row's entry v. So the two result arrays the region leaves are, at (b, v),

    logits (b, v) - row v          and          row v,

  and the scalar result, which the region never touches, is the coverage loss.
-/
import proofs.«131697_j27685359190337_1_alg».proof.Proof.KernelBlocks
import proofs.«131697_j27685359190337_1_alg».proof.Proof.KernelHost
import Idealize.ShloMosaic.Lib.ValueLayout

noncomputable section

namespace Cert.KernelIdeal.Result

open Cert.KernelIdeal Cert.KernelIdeal.Gen Cert.KernelIdeal.Value Idealize.ShloMosaic Idealize.ShloMosaic.TcCoe Idealize.SL.Sem
open Idealize.ShloMosaic.ValueIdx
open Cert.KernelIdeal.Penalty (penaltyRow coverage)
open Cert.KernelIdeal.Blocks (lessRow underEveryRow less_final spread_final)
open Cert.KernelIdeal.HostPart (row_operand scalar_result)

variable {F : FTy → Type} [FloatOps F]
variable (m : (ℓ : Loc nD τ sig) → Buf (Elt F) ℓ) (ρ : Dev nD → PrngReg)

/-- The penalty row of device `c`'s arguments. -/
abbrev row (c : Dev nD) : S128000.Idx → Elt F .f32 :=
  penaltyRow (F := F) (m ((c : Thread nD τ).loc main_arg1)) (m ((c : Thread nD τ).loc main_arg2)) (m ((c : Thread nD τ).loc main_arg3))

/-- The penalties: the row under every row of the batch. -/
abbrev penalties (c : Dev nD) : S64x128000.Idx → Elt F .f32 := fun i => row m c (ix1 (i 1))

/-- The modified logits: the logits less the row, row by row. -/
abbrev modified (c : Dev nD) : S64x128000.Idx → Elt F .f32 :=
  fun i => FloatOps.subf ((m ((c : Thread nD τ).loc main_arg0) : S64x128000.Idx → Elt F .f32) i) (row m c (ix1 (i 1)))

/-- The coverage loss of device `c`'s arguments. -/
abbrev loss (c : Dev nD) : S_.Idx → Elt F .f32 :=
  coverage (F := F) (m ((c : Thread nD τ).loc main_arg1)) (m ((c : Thread nD τ).loc main_arg2))

/-- The one-row operand at (0, v) is the penalty row at v. -/
theorem row_operand_apply (c : Dev nD) (v : Fin 128000) :
    (V m c main_v38 : S1x128000.Idx → Elt F .f32) (ix2 (0 : Fin 1) v) = row m c (ix1 v) := by
  rw [row_operand]
  exact shapeCast_a_1a_apply _ _ (0 : Fin 1) v

theorem spread_eq (c : Dev nD) : underEveryRow (V m c main_v38) = penalties m c :=
  funext fun i => row_operand_apply m c (i 1)

theorem less_eq (c : Dev nD) : lessRow (V m c main_arg0) (V m c main_v38) = modified m c := by
  funext i
  show FloatOps.subf (V m c main_arg0 i) (V m c main_v38 (ix2 (0 : Fin 1) (i 1))) = _
  have e0 : (V m c main_arg0 : S64x128000.Idx → Elt F .f32) i = (m ((c : Thread nD τ).loc main_arg0) : S64x128000.Idx → Elt F .f32) i := by
    rw [V_main_arg0]
  exact congrArg₂ FloatOps.subf e0 (row_operand_apply m c (i 1))

/-- THE RUN, READ: every weakly fair execution ends with the three results at their functions of the arguments and the
    arguments unchanged. -/
theorem run : θ_run defs (onTc (τ := τ) (main (F := F))) ⟨m, fun _ => 0, ρ⟩ fun r => ∀ c : Dev nD,
      r.2.mem ((c : Thread nD τ).loc main_v39_0) = modified m c
      ∧ r.2.mem ((c : Thread nD τ).loc main_v37) = loss m c
      ∧ r.2.mem ((c : Thread nD τ).loc main_v39_1) = penalties m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans ((less_final m c).trans (less_eq m c)),
      ((h c).2 main_v37 (Pipeline.mem_restRefs_of main_v37 (by decide) (by decide))).trans (scalar_result m c),
      (post3 m r h c).trans ((spread_final m c).trans (spread_eq m c)),
      kept_main_arg0 m r h c,
      kept_main_arg1 m r h c,
      kept_main_arg2 m r h c,
      kept_main_arg3 m r h c⟩)
    (run_main m ρ)

end Cert.KernelIdeal.Result

end
-- ==== Proof.RefRead.lean ====
/-
  The reference's three results, index by index, over the generated reading of its host operations.

  The reference computes the same penalty row and the same coverage loss as the specification (the same operations
  on the same literals, so each equation holds by unfolding); it then spreads the row over the batch by two
  broadcasts — 128000 entries to one row of 128000, one row to 64 rows — and subtracts. A broadcast read at an index
  is its operand read at the index's coordinates on the operand's axes, so

    penalties (b, v) = row v          modified (b, v) = logits (b, v) - row v.
-/
import proofs.«131697_j27685359190337_1_alg».proof.Proof.Gen.ReferenceIdeal.Run
import proofs.«131697_j27685359190337_1_alg».proof.Proof.Gen.ReferenceIdeal.Read
import proofs.«131697_j27685359190337_1_alg».proof.Proof.Penalty
import Idealize.ShloMosaic.Lib.ValueIdx

noncomputable section

namespace Cert.ReferenceIdeal.RefSide

open Cert.ReferenceIdeal Cert.ReferenceIdeal.Read Idealize.ShloMosaic Idealize.ShloMosaic.TcCoe Idealize.SL.Sem
open Idealize.ShloMosaic.ValueIdx
open Cert.KernelIdeal.Penalty (penaltyRow coverage)

variable {F : FTy → Type} [FloatOps F] [Cert.KernelIdeal.Facts]

/-- The reference's scatter-add result is the specification's penalty row. -/
theorem row_eq (x1 : (⟨S512, .f32⟩ : BufTy).Contents (Elt F)) (x2 x3 : (⟨S1000000, .i32⟩ : BufTy).Contents (Elt F)) :
    val_main_v22 (F := F) x1 x2 x3 = penaltyRow (F := F) x1 x2 x3 := rfl

/-- The reference's scalar result is the specification's coverage loss. -/
theorem coverage_run (x1 : (⟨S512, .f32⟩ : BufTy).Contents (Elt F)) (x2 : (⟨S1000000, .i32⟩ : BufTy).Contents (Elt F)) :
    val_main_v40 (F := F) x1 x2 = coverage (F := F) x1 x2 := rfl

/-- The spread penalties at (b, v): the row's entry v. -/
theorem penalties_apply (x1 : (⟨S512, .f32⟩ : BufTy).Contents (Elt F)) (x2 x3 : (⟨S1000000, .i32⟩ : BufTy).Contents (Elt F))
    (i : S64x128000.Idx) :
    val_main_v24 (F := F) x1 x2 x3 i = penaltyRow (F := F) x1 x2 x3 (ix1 (i 1)) := by
  rw [val_main_v24_apply, val_main_v23_apply, row_eq]
  exact congrArg _ (funext fun a => Fin.ext (match a with | ⟨0, _⟩ => rfl))

/-- The reference's third result as one function of the arguments. -/
theorem penalties_run (x1 : (⟨S512, .f32⟩ : BufTy).Contents (Elt F)) (x2 x3 : (⟨S1000000, .i32⟩ : BufTy).Contents (Elt F)) :
    val_main_v24 (F := F) x1 x2 x3 = fun i => penaltyRow (F := F) x1 x2 x3 (ix1 (i 1)) :=
  funext (penalties_apply x1 x2 x3)

/-- The reference's first result as one function of the arguments. -/
theorem modified_run (x0 : (⟨S64x128000, .f32⟩ : BufTy).Contents (Elt F)) (x1 : (⟨S512, .f32⟩ : BufTy).Contents (Elt F))
    (x2 x3 : (⟨S1000000, .i32⟩ : BufTy).Contents (Elt F)) :
    val_main_v25 (F := F) x0 x1 x2 x3 = fun i => FloatOps.subf (x0 i) (penaltyRow (F := F) x1 x2 x3 (ix1 (i 1))) := by
  funext i
  rw [val_main_v25_apply, penalties_apply]

end Cert.ReferenceIdeal.RefSide

end
-- ==== Proof.lean ====
/- The proof of `Cert.Claim`: a per-token penalty, gathered from per-rule gates and scattered into a row of 128000
   entries, is subtracted from every row of a 64 × 128000 array of logits; the results are the modified logits, a
   coverage loss, and the penalties spread over the batch.

   Both programs compute the penalty row and the coverage loss by the same host operations on the same literals
   (Proof/Penalty.lean names them). They differ only in how the row meets the logits. The kernel recasts the row to
   1 × 128000 and walks the columns in ten tiles of 12800: at a tile it lays the tile's stretch of the row under the 64
   rows, stores the difference and the laid-out stretch (Proof/KernelBlocks.lean: each tile writes back its block of
   the two whole-array functions, and the ten tiles cover the arrays; Proof/KernelHost.lean: what the host part hands
   the region; Proof/KernelRun.lean: the run with its results named). The reference broadcasts the row to
   64 × 128000 and subtracts (Proof/RefRead.lean). On both sides, at (b, v),

     modified (b, v) = logits (b, v) - row v,      penalties (b, v) = row v,

   with the same subtraction on the extended reals and no rearrangement of any sum, so no finiteness is used: the
   two runs end at one and the same triple of functions of the arguments.

   The frames are the generated ones (the reference's is its generated run with the results dropped); the idealization
   rewrote nothing, so `preserves` is trivial. -/
import proofs.«131697_j27685359190337_1_alg».proof.Defs
import proofs.«131697_j27685359190337_1_alg».proof.Proof.Gen.Kernel
import proofs.«131697_j27685359190337_1_alg».proof.Proof.Gen.Kernel.Skeleton
import proofs.«131697_j27685359190337_1_alg».proof.Proof.Gen.Kernel.Launch
import proofs.«131697_j27685359190337_1_alg».proof.Proof.Gen.Kernel.Points
import proofs.«131697_j27685359190337_1_alg».proof.Proof.Gen.Kernel.Frame
import proofs.«131697_j27685359190337_1_alg».proof.Proof.Gen.KernelIdeal
import proofs.«131697_j27685359190337_1_alg».proof.Proof.Gen.KernelIdeal.Skeleton
import proofs.«131697_j27685359190337_1_alg».proof.Proof.Gen.KernelIdeal.Launch
import proofs.«131697_j27685359190337_1_alg».proof.Proof.Gen.KernelIdeal.Points
import proofs.«131697_j27685359190337_1_alg».proof.Proof.Gen.KernelIdeal.Frame
import proofs.«131697_j27685359190337_1_alg».proof.Proof.Gen.ReferenceIdeal
import proofs.«131697_j27685359190337_1_alg».proof.Proof.Gen.Pre_finite_inputs
import proofs.«131697_j27685359190337_1_alg».proof.Proof.KernelRun
import proofs.«131697_j27685359190337_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments, the kernel's run ends at (logits less the row, the coverage loss, the
    row under every row) of its arguments, and the reference's run at the same three functions of the same arguments. -/
theorem algebraic : Cert.algebraic_KernelIdeal_ReferenceIdeal := by
  intro m ρ m' ρ' _ hagree
  refine ⟨fun c => Cert.KernelIdeal.Result.modified m c, fun c => Cert.KernelIdeal.Result.loss m c,
    fun c => Cert.KernelIdeal.Result.penalties m c, Cert.KernelIdeal.Result.run (F := Ideal) m ρ, ?_⟩
  refine (θ_run Cert.ReferenceIdeal.defs _ _).mono (fun _ h c => ?_) (Cert.ReferenceIdeal.Value.run (F := Ideal) m' ρ')
  obtain ⟨h0, h1, h2, h3⟩ := hagree c
  refine ⟨(h c).1.trans ?_, (h c).2.1.trans ?_, (h c).2.2.1.trans ?_, (h c).2.2.2⟩
  · rw [h0, h1, h2, h3]
    exact (Cert.ReferenceIdeal.Read.val_main_v25_eq _ _ _ _).trans (Cert.ReferenceIdeal.RefSide.modified_run _ _ _ _)
  · rw [h1, h2]
    exact (Cert.ReferenceIdeal.Read.val_main_v40_eq _ _).trans (Cert.ReferenceIdeal.RefSide.coverage_run _ _)
  · rw [h1, h2, h3]
    exact (Cert.ReferenceIdeal.Read.val_main_v24_eq _ _ _).trans (Cert.ReferenceIdeal.RefSide.penalties_run _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
